-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S256x768 : Shape := ⟨2, ![256, 768]⟩
abbrev S256 : Shape := ⟨1, ![256]⟩
abbrev S100000x256 : Shape := ⟨2, ![100000, 256]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S100000x256 : S_.BroadcastsInDim S100000x256 (![] : Fin 0 → Fin S100000x256.rank)
  reducesTo_S100000x256_S_d0_1 : S100000x256.ReducesTo [0, 1] S_

variable [Facts]

def fn_part1 {F : FTy → Type} [FloatOps F] (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  main_v18

def fn {F : FTy → Type} [FloatOps F] (main_arg0 : FVec F S4x128x768 .f32) (main_arg1 : FVec F S256x768 .f32) (main_arg2 : FVec F S256 .f32) (main_arg3 : FVec F S100000x256 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_v13 main_v16
-- ==== Kernel.lean ====
abbrev S4x128x768 : Shape := ⟨3, ![4, 128, 768]⟩
abbrev S256x768 : Shape := ⟨2, ![256, 768]⟩
abbrev S256 : Shape := ⟨1, ![256]⟩
abbrev S100000x256 : Shape := ⟨2, ![100000, 256]⟩
abbrev S512x768 : Shape := ⟨2, ![512, 768]⟩
abbrev S512x256 : Shape := ⟨2, ![512, 256]⟩
abbrev S128x768 : Shape := ⟨2, ![128, 768]⟩
abbrev S128x256 : Shape := ⟨2, ![128, 256]⟩
abbrev S1x256 : Shape := ⟨2, ![1, 256]⟩
abbrev S128 : Shape := ⟨1, ![128]⟩
abbrev S128x1 : Shape := ⟨2, ![128, 1]⟩
abbrev S_ : Shape := ⟨0, ![]⟩
abbrev S100352x256 : Shape := ⟨2, ![100352, 256]⟩
abbrev S512x100352 : Shape := ⟨2, ![512, 100352]⟩
abbrev S2048x256 : Shape := ⟨2, ![2048, 256]⟩
abbrev S512x2048 : Shape := ⟨2, ![512, 2048]⟩
abbrev S2048 : Shape := ⟨1, ![2048]⟩
abbrev S2048x1 : Shape := ⟨2, ![2048, 1]⟩
abbrev S512x100000 : Shape := ⟨2, ![512, 100000]⟩
abbrev S4x128x100000 : Shape := ⟨3, ![4, 128, 100000]⟩

abbrev nBuf : Space → Nat
  | .hbm => 12
  | .vmem => 11
  | .smem => 0
  | _ => 0

abbrev bufTy : (tb : Table) → Fin (tcTables nBuf tb) → BufTy
  | .hbm, ⟨0, _⟩ => ⟨S4x128x768, .f32⟩
  | .hbm, ⟨1, _⟩ => ⟨S256x768, .f32⟩
  | .hbm, ⟨2, _⟩ => ⟨S256, .f32⟩
  | .hbm, ⟨3, _⟩ => ⟨S100000x256, .f32⟩
  | .hbm, ⟨4, _⟩ => ⟨S512x768, .f32⟩
  | .hbm, ⟨5, _⟩ => ⟨S512x256, .f32⟩
  | .hbm, ⟨6, _⟩ => ⟨S_, .i32⟩
  | .hbm, ⟨7, _⟩ => ⟨S_, .f32⟩
  | .hbm, ⟨8, _⟩ => ⟨S100352x256, .f32⟩
  | .hbm, ⟨9, _⟩ => ⟨S512x100352, .f32⟩
  | .hbm, ⟨10, _⟩ => ⟨S512x100000, .f32⟩
  | .hbm, ⟨11, _⟩ => ⟨S4x128x100000, .f32⟩
  | .local _ .vmem, ⟨0, _⟩ => ⟨S128x768, .f32⟩
  | .local _ .vmem, ⟨1, _⟩ => ⟨S128x768, .f32⟩
  | .local _ .vmem, ⟨2, _⟩ => ⟨S256x768, .f32⟩
  | .local _ .vmem, ⟨3, _⟩ => ⟨S256, .f32⟩
  | .local _ .vmem, ⟨4, _⟩ => ⟨S128x256, .f32⟩
  | .local _ .vmem, ⟨5, _⟩ => ⟨S128x256, .f32⟩
  | .local _ .vmem, ⟨6, _⟩ => ⟨S512x256, .f32⟩
  | .local _ .vmem, ⟨7, _⟩ => ⟨S2048x256, .f32⟩
  | .local _ .vmem, ⟨8, _⟩ => ⟨S2048x256, .f32⟩
  | .local _ .vmem, ⟨9, _⟩ => ⟨S512x2048, .f32⟩
  | .local _ .vmem, ⟨10, _⟩ => ⟨S512x2048, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x128x768_S512x768 : S4x128x768.ShapeCasts S512x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  reduces_S128x256_S128 : S128x256.Reduces [1] S128
  shapeCasts_S128_S128x1 : S128.ShapeCasts S128x1
  broadcasts_S128x1_S128x256 : S128x1.Broadcasts S128x256
  inb_S128x256_S128x256_0_0 : ∀ a, (![0, 0] : Fin 2 → Nat) a + S128x256.size a ≤ S128x256.size a
  h_S128x256 : 0 < S128x256.numel
  pads_S100000x256_S100352x256_03520_000 : S100000x256.Pads (![0, 0] : Fin 2 → Nat) ![352, 0] ![0, 0] S100352x256
  h_S_ : 0 < S_.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  inb_S512x2048_S512x2048_0_0 : ∀ a, (![0, 0] : Fin 2 → Nat) a + S512x2048.size a ≤ S512x2048.size a
  h_S512x2048 : 0 < S512x2048.numel
  slices_S512x100352_S512x100000_0_0 : S512x100352.Slices ![0, 0] S512x100000
  shapeCasts_S512x100000_S4x128x100000 : S512x100000.ShapeCasts S4x128x100000
  dot_S128x768_S256x768_S128x256_1_1_0_0_n_n_wf : DotDims.WF S128x768 S256x768 S128x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S512x768.size a
  hwx0_0 : ∀ i : grid0.Coords, EltTy.bits .f32 = 32 ∨ (Rect.block (s := S512x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S512x256.size a
  hwx0_3 : ∀ i : grid0.Coords, EltTy.bits .f32 = 32 ∨ (Rect.block (s := S512x256) S128x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S100352x256.size a
  hwx1_1 : ∀ i : grid1.Coords, EltTy.bits .f32 = 32 ∨ (Rect.block (s := S100352x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x100352.size a
  hwx1_2 : ∀ i : grid1.Coords, EltTy.bits .f32 = 32 ∨ (Rect.block (s := S512x100352) S512x2048.size (cc1_transform_2 i) (hinb1_2 i)).WholeWords (EltTy.packing .f32)

variable [Facts₀]

def dot_S128x768_S256x768_S128x256_1_1_0_0_n_n : DotDims S128x768 S256x768 S128x256 where
  lhsContracting := [1]
  rhsContracting := [1]
  lhsNonContracting := [0]
  rhsNonContracting := [0]
  lhsBatch := []
  rhsBatch := []
  wf := dot_S128x768_S256x768_S128x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v0) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x128x768 : Shape := ⟨3, ![4, 128, 768]⟩
abbrev S256x768 : Shape := ⟨2, ![256, 768]⟩
abbrev S256 : Shape := ⟨1, ![256]⟩
abbrev S100000x256 : Shape := ⟨2, ![100000, 256]⟩
abbrev S4x128x256 : Shape := ⟨3, ![4, 128, 256]⟩
abbrev S1x1x256 : Shape := ⟨3, ![1, 1, 256]⟩
abbrev S_ : Shape := ⟨0, ![]⟩
abbrev S4x128 : Shape := ⟨2, ![4, 128]⟩
abbrev S4x128x1 : Shape := ⟨3, ![4, 128, 1]⟩
abbrev S100000 : Shape := ⟨1, ![100000]⟩
abbrev S100000x1 : Shape := ⟨2, ![100000, 1]⟩
abbrev S4x128x100000 : Shape := ⟨3, ![4, 128, 100000]⟩

abbrev nBuf : Space → Nat
  | .hbm => 30
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S256x768, .f32⟩
  | .hbm, ⟨2, _⟩ => ⟨S256, .f32⟩
  | .hbm, ⟨3, _⟩ => ⟨S100000x256, .f32⟩
  | .hbm, ⟨4, _⟩ => ⟨S4x128x256, .f32⟩
  | .hbm, ⟨5, _⟩ => ⟨S1x1x256, .f32⟩
  | .hbm, ⟨6, _⟩ => ⟨S4x128x256, .f32⟩
  | .hbm, ⟨7, _⟩ => ⟨S4x128x256, .f32⟩
  | .hbm, ⟨8, _⟩ => ⟨S4x128x256, .f32⟩
  | .hbm, ⟨9, _⟩ => ⟨S4x128x256, .f32⟩
  | .hbm, ⟨10, _⟩ => ⟨S_, .f32⟩
  | .hbm, ⟨11, _⟩ => ⟨S4x128, .f32⟩
  | .hbm, ⟨12, _⟩ => ⟨S4x128x1, .f32⟩
  | .hbm, ⟨13, _⟩ => ⟨S4x128x1, .f32⟩
  | .hbm, ⟨14, _⟩ => ⟨S_, .f32⟩
  | .hbm, ⟨15, _⟩ => ⟨S4x128x1, .f32⟩
  | .hbm, ⟨16, _⟩ => ⟨S4x128x1, .f32⟩
  | .hbm, ⟨17, _⟩ => ⟨S4x128x256, .f32⟩
  | .hbm, ⟨18, _⟩ => ⟨S4x128x256, .f32⟩
  | .hbm, ⟨19, _⟩ => ⟨S100000x256, .f32⟩
  | .hbm, ⟨20, _⟩ => ⟨S_, .f32⟩
  | .hbm, ⟨21, _⟩ => ⟨S100000, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S4x128x100000, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x128x256_0_1_2 : S1x1x256.BroadcastsInDim S4x128x256 (![0, 1, 2] : Fin 3 → Fin S4x128x256.rank)
  reducesTo_S4x128x256_S4x128_d2 : S4x128x256.ReducesTo [2] S4x128
  h_S_ : 0 < S_.numel
  bcast_S4x128_S4x128x1_0_1 : S4x128.BroadcastsInDim S4x128x1 (![0, 1] : Fin 2 → Fin S4x128x1.rank)
  bcast_S_S4x128x1 : S_.BroadcastsInDim S4x128x1 (![] : Fin 0 → Fin S4x128x1.rank)
  bcast_S4x128x1_S4x128x256_0_1_2 : S4x128x1.BroadcastsInDim S4x128x256 (![0, 1, 2] : Fin 3 → Fin S4x128x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  dot_S4x128x768_S256x768_S4x128x256_2_1_01_0_n_n_wf : DotDims.WF S4x128x768 S256x768 S4x128x256 [2] [1] [0, 1] [0] [] []
  dot_S4x128x256_S100000x256_S4x128x100000_2_1_01_0_n_n_wf : DotDims.WF S4x128x256 S100000x256 S4x128x100000 [2] [1] [0, 1] [0] [] []

variable [Facts₀]

def dot_S4x128x768_S256x768_S4x128x256_2_1_01_0_n_n : DotDims S4x128x768 S256x768 S4x128x256 where
  lhsContracting := [2]
  rhsContracting := [1]
  lhsNonContracting := [0, 1]
  rhsNonContracting := [0]
  lhsBatch := []
  rhsBatch := []
  wf := dot_S4x128x768_S256x768_S4x128x256_2_1_01_0_n_n_wf
def dot_S4x128x256_S100000x256_S4x128x100000_2_1_01_0_n_n : DotDims S4x128x256 S100000x256 S4x128x100000 where
  lhsContracting := [2]
  rhsContracting := [1]
  lhsNonContracting := [0, 1]
  rhsNonContracting := [0]
  lhsBatch := []
  rhsBatch := []
  wf := dot_S4x128x256_S100000x256_S4x128x100000_2_1_01_0_n_n_wf

class Facts : Prop extends Facts₀ where

variable [Facts]
-- ==== Proof.Spec.lean ====
/-
  The mathematics both programs compute, over the extended reals.

  A token's feature row is mapped affinely into 256 coordinates and squashed by tanh; the squashed
  row is divided by the larger of its Euclidean length and a small floor; every row of the entity
  table is divided the same way; the score of a token against an entity is the inner product of the
  two scaled rows. Nothing here depends on how either program tiles or orders the work: a sum is a
  sum over a finite index type.
-/
import Idealize.ShloMosaic.PureOps.Ideal
import Idealize.ShloMosaic.Lib.ValueIdx

noncomputable section

namespace Cert.Cosine

open Idealize.ShloMosaic

/-- The floor under a length: the single-precision word both programs write for 1e-8. -/
abbrev floorLen : EReal := Ideal.ofBits .f32 0x322BCC77#32

/-- A row divided, entry by entry, by the larger of its Euclidean length and the floor. -/
def scaled {n : Nat} (v : Fin n → EReal) (d : Fin n) : EReal :=
  Ideal.div (v d) (max (Ideal.sqrt (∑ k : Fin n, v k * v k)) floorLen)

/-- One token's squashed projection: tanh of the affine image of its feature row. -/
def squashed (x : Fin 768 → EReal) (W : Fin 256 → Fin 768 → EReal) (b : Fin 256 → EReal) (e : Fin 256) : EReal :=
  Ideal.tanh ((∑ k : Fin 768, x k * W e k) + b e)

/-- The score of one token against one entity row: the inner product of the two scaled rows. -/
def score (x : Fin 768 → EReal) (W : Fin 256 → Fin 768 → EReal) (b : Fin 256 → EReal) (ent : Fin 256 → EReal) : EReal :=
  ∑ d : Fin 256, scaled (squashed x W b) d * scaled ent d

end Cert.Cosine

end
-- ==== Proof.LibKeepdims.lean ====
/-
  Two layout readings a row-wise reduction with a kept unit axis needs: a vector viewed as a
  one-column matrix, and a one-column matrix copied across columns. Each reads, at an index of the
  result, the operand at the index with the same row.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`:
    both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body0.lean ====
/-
  The projection body at one entry.

  The block the body stores holds, at row p and column q, the q-th coordinate of the scaled squashed
  projection of the p-th loaded feature row: the matrix product contracts the 768 features of row p
  against row q of the weights, the bias is added by column, tanh is taken, and the row is divided by
  the larger of its length and the floor. A change of float format is the identity on the extended
  reals, and a product accumulated into zero is the plain sum.
-/
import proofs.«107490_j66142496358617_1_alg».proof.Proof.Gen.KernelIdeal.Skeleton
import proofs.«107490_j66142496358617_1_alg».proof.Proof.Spec
import proofs.«107490_j66142496358617_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Proj

open Idealize.ShloMosaic Idealize.ShloMosaic.ValueIdx Cert.KernelIdeal Cert.KernelIdeal.Gen Cert.Cosine

/-! ## The product's operand indices, axis by axis -/

theorem lhs_0 (i : S128x256.Idx) (q : dot_S128x768_S256x768_S128x256_1_1_0_0_n_n.contr.Idx) :
    (dot_S128x768_S256x768_S128x256_1_1_0_0_n_n.lhsIdx i q 0).val = (i 0).val := by
  unfold DotDims.lhsIdx
  rw [dif_neg (show ¬(0 : Fin S128x768.rank) ∈ dot_S128x768_S256x768_S128x256_1_1_0_0_n_n.lhsBatch by decide), dif_pos (show (0 : Fin S128x768.rank) ∈ dot_S128x768_S256x768_S128x256_1_1_0_0_n_n.lhsNonContracting by decide)]
  rfl
theorem lhs_1 (i : S128x256.Idx) (q : dot_S128x768_S256x768_S128x256_1_1_0_0_n_n.contr.Idx) :
    (dot_S128x768_S256x768_S128x256_1_1_0_0_n_n.lhsIdx i q 1).val = (q ⟨0, by decide⟩).val :=
  dot_S128x768_S256x768_S128x256_1_1_0_0_n_n.lhsIdx_val_of_single rfl i q
theorem rhs_0 (i : S128x256.Idx) (q : dot_S128x768_S256x768_S128x256_1_1_0_0_n_n.contr.Idx) :
    (dot_S128x768_S256x768_S128x256_1_1_0_0_n_n.rhsIdx i q 0).val = (i 1).val := by
  unfold DotDims.rhsIdx
  rw [dif_neg (show ¬(0 : Fin S256x768.rank) ∈ dot_S128x768_S256x768_S128x256_1_1_0_0_n_n.rhsBatch by decide), dif_pos (show (0 : Fin S256x768.rank) ∈ dot_S128x768_S256x768_S128x256_1_1_0_0_n_n.rhsNonContracting by decide)]
  rfl
theorem rhs_1 (i : S128x256.Idx) (q : dot_S128x768_S256x768_S128x256_1_1_0_0_n_n.contr.Idx) :
    (dot_S128x768_S256x768_S128x256_1_1_0_0_n_n.rhsIdx i q 1).val = (q ⟨0, by decide⟩).val :=
  dot_S128x768_S256x768_S128x256_1_1_0_0_n_n.rhsIdx_val_of_single rfl i q

/-- The product into zero at (p, q): the sum over the 768 features of row p of the left operand times
    row q of the right. -/
theorem product_apply (A : FVec Ideal S128x768 .bf16) (B : FVec Ideal S256x768 .bf16) (p : Fin 128) (q : Fin 256) :
    matmul dot_S128x768_S256x768_S128x256_1_1_0_0_n_n none A B (constant S128x256 .f32 0x00000000#32) (ix2 p q)
      = ∑ k : Fin 768, A (ix2 p k) * B (ix2 q k) := by
  simp only [matmul]
  rw [Ideal.matmul_constant_zero_apply, ← Equiv.sum_comp (ValueIdx.contrEquiv1 dot_S128x768_S256x768_S128x256_1_1_0_0_n_n 768 rfl rfl).symm]
  refine Finset.sum_congr rfl fun k _ => ?_
  have hk := ValueIdx.contrEquiv1_symm_val dot_S128x768_S256x768_S128x256_1_1_0_0_n_n 768 rfl rfl k
  have el : dot_S128x768_S256x768_S128x256_1_1_0_0_n_n.lhsIdx (ix2 p q) ((ValueIdx.contrEquiv1 dot_S128x768_S256x768_S128x256_1_1_0_0_n_n 768 rfl rfl).symm k) = ix2 p k := funext fun a => Fin.ext (by
    match a with
    | ⟨0, _⟩ => exact lhs_0 _ _
    | ⟨1, _⟩ => exact (lhs_1 _ _).trans hk)
  have er : dot_S128x768_S256x768_S128x256_1_1_0_0_n_n.rhsIdx (ix2 p q) ((ValueIdx.contrEquiv1 dot_S128x768_S256x768_S128x256_1_1_0_0_n_n 768 rfl rfl).symm k) = ix2 q k := funext fun a => Fin.ext (by
    match a with
    | ⟨0, _⟩ => exact rhs_0 _ _
    | ⟨1, _⟩ => exact (rhs_1 _ _).trans hk)
  rw [el, er]

/-- The bias, copied down the rows, at (p, q) is its q-th entry. -/
theorem bias_apply (x2 : Vec Ideal S256 .f32) (p : Fin 128) (q : Fin 256) :
    broadcastTo S128x256 (shapeCast S1x256 x2 shapeCasts_S256_S1x256) broadcasts_S1x256_S128x256 (ix2 p q) = x2 (ix1 q) :=
  (broadcastTo_1b_ab_apply _ _ p q).trans (shapeCast_a_1a_apply _ _ _ q)

/-- The squashed projection of the loaded blocks, as the body computes it. -/
def sq (x0 : Vec Ideal S128x768 .f32) (x1 : Vec Ideal S256x768 .f32) (x2 : Vec Ideal S256 .f32) : FVec Ideal S128x256 .f32 :=
  tanh (addf (matmul dot_S128x768_S256x768_S128x256_1_1_0_0_n_n none (truncf .bf16 (shapeCast S128x768 x0 shapeCasts_S128x768_S128x768) bitsLt_bf16_f32)
      (truncf .bf16 x1 bitsLt_bf16_f32) (constant S128x256 .f32 0x00000000#32))
    (broadcastTo S128x256 (shapeCast S1x256 x2 shapeCasts_S256_S1x256) broadcasts_S1x256_S128x256))

/-- At (p, q) it is the q-th squashed coordinate of feature row p. -/
theorem sq_apply (x0 : Vec Ideal S128x768 .f32) (x1 : Vec Ideal S256x768 .f32) (x2 : Vec Ideal S256 .f32) (p : Fin 128) (q : Fin 256) :
    sq x0 x1 x2 (ix2 p q) = squashed (fun k => x0 (ix2 p k)) (fun e k => x1 (ix2 e k)) (fun e => x2 (ix1 e)) q := by
  unfold sq squashed
  show Ideal.tanh (matmul (F := Ideal) dot_S128x768_S256x768_S128x256_1_1_0_0_n_n none _ _ _ (ix2 p q) + broadcastTo S128x256 _ _ (ix2 p q)) = _
  rw [product_apply, bias_apply, shapeCast_self]
  rfl

/-- The payload is the squashed projection divided by its rows' floored lengths. -/
theorem pay_eq (x0 : Vec Ideal S128x768 .f32) (x1 : Vec Ideal S256x768 .f32) (x2 : Vec Ideal S256 .f32) :
    k0_pay1 (F := Ideal) x0 x1 x2 = divf (sq x0 x1 x2) (broadcastTo S128x256 (maximumf (sqrt (shapeCast S128x1
      (multiReduction .add [1] S128 (mulf (sq x0 x1 x2) (sq x0 x1 x2)) 0x00000000#32 reduces_S128x256_S128 (.inl rfl) rfl) shapeCasts_S128_S128x1))
      (broadcast S128x1 (Scalar.ofBits .f32 0x322BCC77#32))) broadcasts_S128x1_S128x256) := rfl

/-- THE BODY AT ONE ENTRY: row p, column q of the stored block is the q-th coordinate of the scaled squashed
    projection of the p-th loaded feature row. -/
theorem pay_apply (x0 : Vec Ideal S128x768 .f32) (x1 : Vec Ideal S256x768 .f32) (x2 : Vec Ideal S256 .f32) (p : Fin 128) (q : Fin 256) :
    k0_pay1 (F := Ideal) x0 x1 x2 (ix2 p q)
      = scaled (squashed (fun k => x0 (ix2 p k)) (fun e k => x1 (ix2 e k)) (fun e => x2 (ix1 e))) q := by
  rw [pay_eq]
  unfold scaled
  show Ideal.div (sq x0 x1 x2 (ix2 p q)) (broadcastTo S128x256 _ broadcasts_S128x1_S128x256 (ix2 p q)) = _
  rw [sq_apply]
  refine congrArg (Ideal.div _) ((broadcastTo_a1_ab_apply _ _ p q).trans ?_)
  show max (Ideal.sqrt (shapeCast S128x1 _ shapeCasts_S128_S128x1 (ix2 p (0 : Fin 1)))) (Ideal.ofBits .f32 0x322BCC77#32) = _
  refine congrArg (fun z => max (Ideal.sqrt z) _) ((shapeCast_a_a1_apply _ _ p 0).trans ?_)
  refine (Ideal.multiReduction_add_single _ _ _ _ _ (ix1 p)).trans ?_
  show (∑ k : Fin 256, mulf (sq x0 x1 x2) (sq x0 x1 x2) (reduces_S128x256_S128.lift (ix1 p) k)) = ∑ k : Fin 256, _
  refine Finset.sum_congr rfl fun k _ => ?_
  have hk : reduces_S128x256_S128.lift (ix1 p) k = ix2 p k := funext fun a => Fin.ext (by
    match a with
    | ⟨0, _⟩ => rfl
    | ⟨1, _⟩ => rfl)
  show sq x0 x1 x2 _ * sq x0 x1 x2 _ = _
  rw [hk, sq_apply]

end Cert.KernelIdeal.Proj

end
-- ==== Proof.Region0.lean ====
/-
  What the projection region leaves in its output array.

  The region runs the projection body on four row blocks of 128 tokens; the weights and the bias are
  the same block at every point. Point t writes back rows 128·t … 128·t + 127, so the blocks tile the
  512 rows, and the array ends holding, at row r and column e, the e-th coordinate of the scaled
  squashed projection of feature row r — whatever the arrays held when the region was entered.
-/
import proofs.«107490_j66142496358617_1_alg».proof.Proof.Gen.KernelIdeal.Frame
import proofs.«107490_j66142496358617_1_alg».proof.Proof.Body0
import Idealize.ShloMosaic.Lib.Pipeline.Value

set_option maxRecDepth 16384

noncomputable section

namespace Cert.KernelIdeal.Proj

open Idealize.ShloMosaic Idealize.ShloMosaic.TcCoe Idealize.ShloMosaic.ValueIdx Idealize.SL.Sem
open Cert.KernelIdeal Cert.KernelIdeal.Gen Cert.Cosine
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The scaled squashed projections of every feature row, as one array over the flattened tokens. -/
def Q (A0 : S512x768.Idx → EReal) (A1 : S256x768.Idx → EReal) (A2 : S256.Idx → EReal) : S512x256.Idx → EReal := fun i =>
  scaled (squashed (fun k => A0 (ix2 (⟨(i 0).val, (i 0).isLt⟩ : Fin 512) k)) (fun e k => A1 (ix2 e k)) (fun e => A2 (ix1 e)))
    (⟨(i 1).val, (i 1).isLt⟩ : Fin 256)

/-- The same at an index given by its coordinates. -/
theorem Q_at (A0 : S512x768.Idx → EReal) (A1 : S256x768.Idx → EReal) (A2 : S256.Idx → EReal) (i : S512x256.Idx)
    (r : Fin 512) (e : Fin 256) (hr : (i 0).val = r.val) (he : (i 1).val = e.val) :
    Q A0 A1 A2 i = scaled (squashed (fun k => A0 (ix2 r k)) (fun e k => A1 (ix2 e k)) (fun e => A2 (ix1 e))) e := by
  unfold Q
  rw [show (⟨(i 0).val, (i 0).isLt⟩ : Fin 512) = r from Fin.ext hr, show (⟨(i 1).val, (i 1).isLt⟩ : Fin 256) = e from Fin.ext he]

/-- The printed index maps over the four points: the feature and output windows move one block of rows per
    point, the weights and the bias stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 ∧ t.val < 4 :=
  (by decide +kernel : ∀ t : Fin grid0.N, _)

/-- WHAT POINT t WRITES BACK is block t of `Q` of the arrays as the region finds them. -/
theorem flushed_eq (c : Dev nD) (t : Fin cfg0.N) :
    (dat0 V c).flushed 3 t = ((cfg0.win 3).blk t).view.read (Elt Ideal) (Q (V c main_v0) (V c main_arg1) (V c main_arg2)) := by
  show (cfg0.win 3).cut (grid0.coords t) ((dat0 V c).after 3 t) = _
  rw [after0_3]
  unfold out0_3
  rw [View.canon_unit_zero hz2]
  simp only [View.ld_unit_zero (S := S128x768) hz2, View.ld_unit_zero (S := S256x768) hz2, View.ld_unit_zero (S := S256) hz1]
  obtain ⟨e00, e01, e10, e11, e20, e30, e31, ht⟩ := idx_facts t
  funext j
  obtain ⟨p, q, rfl⟩ : ∃ (p : Fin 128) (q : Fin 256), j = ix2 p q := ⟨j 0, j 1, eq_ix2 j⟩
  show k0_pay1 (iblk0 V c 0 t) (iblk0 V c 1 t) (iblk0 V c 2 t) (ix2 p q)
    = Q (V c main_v0) (V c main_arg1) (V c main_arg2) (((cfg0.win 3).blk t).view.emb (ix2 p q))
  refine (pay_apply _ _ _ p q).trans ?_
  refine Eq.trans ?_ (Q_at _ _ _ _ (⟨t.val * 128 + p.val, by omega⟩ : Fin 512) q ?_ ?_).symm
  · have h0 : (fun k : Fin 768 => iblk0 V c 0 t (ix2 p k)) = fun k => V c main_v0 (ix2 (⟨t.val * 128 + p.val, by omega⟩ : Fin 512) k) :=
      funext fun k => by
        show V c main_v0 (((cfg0.win 0).blk t).view.emb (ix2 p k)) = _
        refine congrArg _ (funext fun a => Fin.ext ?_)
        match a with
        | ⟨0, _⟩ => show win0_0.index t (0 : Fin 2) * 128 + 1 * p.val = t.val * 128 + p.val; omega
        | ⟨1, _⟩ => show win0_0.index t (1 : Fin 2) * 768 + 1 * k.val = k.val; omega
    have h1 : (fun (e : Fin 256) (k : Fin 768) => iblk0 V c 1 t (ix2 e k)) = fun e k => V c main_arg1 (ix2 e k) :=
      funext fun e => funext fun k => by
        show V c main_arg1 (((cfg0.win 1).blk t).view.emb (ix2 e k)) = _
        refine congrArg _ (funext fun a => Fin.ext ?_)
        match a with
        | ⟨0, _⟩ => show win0_1.index t (0 : Fin 2) * 256 + 1 * e.val = e.val; omega
        | ⟨1, _⟩ => show win0_1.index t (1 : Fin 2) * 768 + 1 * k.val = k.val; omega
    have h2 : (fun e : Fin 256 => iblk0 V c 2 t (ix1 e)) = fun e => V c main_arg2 (ix1 e) :=
      funext fun e => by
        show V c main_arg2 (((cfg0.win 2).blk t).view.emb (ix1 e)) = _
        refine congrArg _ (funext fun a => Fin.ext ?_)
        match a with
        | ⟨0, _⟩ => show win0_2.index t (0 : Fin 1) * 256 + 1 * e.val = e.val; omega
    rw [h0, h1, h2]
  · show win0_3.index t (0 : Fin 2) * 128 + 1 * p.val = t.val * 128 + p.val; omega
  · show win0_3.index t (1 : Fin 2) * 256 + 1 * q.val = q.val; omega

/-- An index of the array is in point t's block iff each coordinate is in the block's range on its axis. -/
theorem mem_blk (t : Fin cfg0.N) (i : S512x256.Idx) :
    i ∈ ((cfg0.win 3).blk t).view.set ↔ ∀ a : Fin 2, win0_3.index t a * S128x256.size a ≤ (i a).val ∧ (i a).val < win0_3.index t a * S128x256.size a + S128x256.size a := by
  show i ∈ ((View.whole main_v1).slice (win0_3.rect t)).set ↔ _
  rw [View.set_slice_whole, Rect.mem_set_unit]
  exact Iff.rfl

/-- Every row lies in the block of the point its row number divided by 128 names. -/
theorem cover (i : S512x256.Idx) : ∃ t : Fin cfg0.N, (cfg0.win 3).flush t = true ∧ i ∈ ((cfg0.win 3).blk t).view.set := by
  have hi0 : (i 0).val < 512 := (i 0).isLt
  have hi1 : (i 1).val < 256 := (i 1).isLt
  let t : Fin cfg0.N := ⟨(i 0).val / 128, by rw [show cfg0.N = 4 from N_0]; omega⟩
  obtain ⟨e00, e01, e10, e11, e20, e30, e31, ht⟩ := idx_facts t
  have htv : t.val = (i 0).val / 128 := rfl
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 256 ≤ (i 1).val ∧ (i 1).val < win0_3.index t (1 : Fin 2) * 256 + 256; omega

/-- THE ARRAY the projection region leaves: `Q` of the arrays as the region finds them. -/
theorem final (c : Dev nD) : (dat0 V c).arrAt 3 cfg0.N = Q (V c main_v0) (V c main_arg1) (V c main_arg2) :=
  (dat0 V c).arrAt_eq_of_cover 3 (Q (V c main_v0) (V c main_arg1) (V c main_arg2)) (fun t _ => flushed_eq V c t) cover

end Cert.KernelIdeal.Proj

end
-- ==== Proof.Body1.lean ====
/-
  The similarity body at one entry.

  The block the body stores holds, at row p and column q, the inner product over the 256 coordinates
  of the p-th loaded query row with the q-th loaded entity row divided by the larger of its length
  and the floor. The query rows arrive already scaled; the entity rows are scaled here.
-/
import proofs.«107490_j66142496358617_1_alg».proof.Proof.Gen.KernelIdeal.Skeleton
import proofs.«107490_j66142496358617_1_alg».proof.Proof.Spec
import proofs.«107490_j66142496358617_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sim

open Idealize.ShloMosaic Idealize.ShloMosaic.ValueIdx Cert.KernelIdeal Cert.KernelIdeal.Gen Cert.Cosine

/-! ## The product's operand indices, axis by axis -/

theorem lhs_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhs_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The product into zero at (p, q): the sum over the 256 coordinates of row p of the left operand times
    row q of the right. -/
theorem product_apply (A : FVec Ideal S512x256 .bf16) (B : FVec Ideal S2048x256 .bf16) (p : Fin 512) (q : Fin 2048) :
    matmul dot_S512x256_S2048x256_S512x2048_1_1_0_0_n_n none A B (constant S512x2048 .f32 0x00000000#32) (ix2 p q)
      = ∑ k : Fin 256, A (ix2 p k) * B (ix2 q k) := by
  simp only [matmul]
  rw [Ideal.matmul_constant_zero_apply, ← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 p q) ((ValueIdx.contrEquiv1 dot_S512x256_S2048x256_S512x2048_1_1_0_0_n_n 256 rfl rfl).symm k) = ix2 p k := funext fun a => Fin.ext (by
    match a with
    | ⟨0, _⟩ => exact lhs_0 _ _
    | ⟨1, _⟩ => exact (lhs_1 _ _).trans hk)
  have er : dot_S512x256_S2048x256_S512x2048_1_1_0_0_n_n.rhsIdx (ix2 p q) ((ValueIdx.contrEquiv1 dot_S512x256_S2048x256_S512x2048_1_1_0_0_n_n 256 rfl rfl).symm k) = ix2 q k := funext fun a => Fin.ext (by
    match a with
    | ⟨0, _⟩ => exact rhs_0 _ _
    | ⟨1, _⟩ => exact (rhs_1 _ _).trans hk)
  rw [el, er]

/-- The loaded entity rows, each divided by its floored length, as the body computes them. -/
def en (x1 : Vec Ideal S2048x256 .f32) : FVec Ideal S2048x256 .f32 :=
  divf (shapeCast S2048x256 x1 shapeCasts_S2048x256_S2048x256) (broadcastTo S2048x256 (maximumf (sqrt (shapeCast S2048x1
    (multiReduction .add [1] S2048 (mulf (shapeCast S2048x256 x1 shapeCasts_S2048x256_S2048x256) (shapeCast S2048x256 x1 shapeCasts_S2048x256_S2048x256))
      0x00000000#32 reduces_S2048x256_S2048 (.inl rfl) rfl) shapeCasts_S2048_S2048x1))
    (broadcast S2048x1 (Scalar.ofBits .f32 0x322BCC77#32))) broadcasts_S2048x1_S2048x256)

/-- At (q, d) it is the d-th coordinate of the scaled q-th row. -/
theorem en_apply (x1 : Vec Ideal S2048x256 .f32) (q : Fin 2048) (d : Fin 256) :
    en x1 (ix2 q d) = scaled (fun d => x1 (ix2 q d)) d := by
  unfold en scaled
  rw [shapeCast_self]
  show Ideal.div (x1 (ix2 q d)) (broadcastTo S2048x256 _ broadcasts_S2048x1_S2048x256 (ix2 q d)) = _
  refine congrArg (Ideal.div _) ((broadcastTo_a1_ab_apply _ _ q d).trans ?_)
  show max (Ideal.sqrt (shapeCast S2048x1 _ shapeCasts_S2048_S2048x1 (ix2 q (0 : Fin 1)))) (Ideal.ofBits .f32 0x322BCC77#32) = _
  refine congrArg (fun z => max (Ideal.sqrt z) _) ((shapeCast_a_a1_apply _ _ q 0).trans ?_)
  refine (Ideal.multiReduction_add_single _ _ _ _ _ (ix1 q)).trans ?_
  show (∑ k : Fin 256, x1 (reduces_S2048x256_S2048.lift (ix1 q) k) * x1 (reduces_S2048x256_S2048.lift (ix1 q) k)) = ∑ k : Fin 256, _
  refine Finset.sum_congr rfl fun k _ => ?_
  have hk : reduces_S2048x256_S2048.lift (ix1 q) k = ix2 q k := funext fun a => Fin.ext (by
    match a with
    | ⟨0, _⟩ => rfl
    | ⟨1, _⟩ => rfl)
  rw [hk]

/-- The payload is the product of the query block with the scaled entity rows. -/
theorem pay_eq (x0 : Vec Ideal S512x256 .f32) (x1 : Vec Ideal S2048x256 .f32) :
    k1_pay1 (F := Ideal) x0 x1 = matmul dot_S512x256_S2048x256_S512x2048_1_1_0_0_n_n none (truncf .bf16 (shapeCast S512x256 x0 shapeCasts_S512x256_S512x256) bitsLt_bf16_f32)
      (truncf .bf16 (en x1) bitsLt_bf16_f32) (constant S512x2048 .f32 0x00000000#32) := rfl

/-- THE BODY AT ONE ENTRY: row p, column q of the stored block is the inner product of the p-th loaded
    query row with the scaled q-th loaded entity row. -/
theorem pay_apply (x0 : Vec Ideal S512x256 .f32) (x1 : Vec Ideal S2048x256 .f32) (p : Fin 512) (q : Fin 2048) :
    k1_pay1 (F := Ideal) x0 x1 (ix2 p q) = ∑ d : Fin 256, x0 (ix2 p d) * scaled (fun d => x1 (ix2 q d)) d := by
  rw [pay_eq, product_apply, shapeCast_self]
  refine Finset.sum_congr rfl fun d _ => ?_
  show x0 (ix2 p d) * en x1 (ix2 q d) = _
  rw [en_apply]

end Cert.KernelIdeal.Sim

end
-- ==== Proof.Region1.lean ====
/-
  What the similarity region leaves in its output array.

  The region runs the similarity body on 49 blocks of 2048 entity rows; the query block is the same
  512 rows at every point. Point t writes back columns 2048·t … 2048·t + 2047, so the blocks tile the
  100352 columns, and the array ends holding, at row r and column j, the inner product of query row r
  with the scaled entity row j — whatever the arrays held when the region was entered.
-/
import proofs.«107490_j66142496358617_1_alg».proof.Proof.Gen.KernelIdeal.Frame
import proofs.«107490_j66142496358617_1_alg».proof.Proof.Body1
import Idealize.ShloMosaic.Lib.Pipeline.Value

set_option maxRecDepth 16384

noncomputable section

namespace Cert.KernelIdeal.Sim

open Idealize.ShloMosaic Idealize.ShloMosaic.TcCoe Idealize.ShloMosaic.ValueIdx Idealize.SL.Sem
open Cert.KernelIdeal Cert.KernelIdeal.Gen Cert.Cosine
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Every query row against every scaled entity row, as one array. -/
def S (A : S512x256.Idx → EReal) (E : S100352x256.Idx → EReal) : S512x100352.Idx → EReal := fun i =>
  ∑ d : Fin 256, A (ix2 (⟨(i 0).val, (i 0).isLt⟩ : Fin 512) d)
    * scaled (fun d => E (ix2 (⟨(i 1).val, (i 1).isLt⟩ : Fin 100352) d)) d

/-- The same at an index given by its coordinates. -/
theorem S_at (A : S512x256.Idx → EReal) (E : S100352x256.Idx → EReal) (i : S512x100352.Idx)
    (r : Fin 512) (j : Fin 100352) (hr : (i 0).val = r.val) (hj : (i 1).val = j.val) :
    S A E i = ∑ d : Fin 256, A (ix2 r d) * scaled (fun d => E (ix2 j d)) d := by
  unfold S
  rw [show (⟨(i 0).val, (i 0).isLt⟩ : Fin 512) = r from Fin.ext hr, show (⟨(i 1).val, (i 1).isLt⟩ : Fin 100352) = j from Fin.ext hj]

/-- The printed index maps over the 49 points: the entity window moves one block of rows per point and the
    output window one block of columns, the query window stays put. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val ∧ t.val < 49 :=
  (by decide +kernel : ∀ t : Fin grid1.N, _)

/-- WHAT POINT t WRITES BACK is block t of `S` of the arrays as the region finds them. -/
theorem flushed_eq (c : Dev nD) (t : Fin cfg1.N) :
    (dat1 V c).flushed 2 t = ((cfg1.win 2).blk t).view.read (Elt Ideal) (S (V c main_v1) (V c main_v2)) := by
  show (cfg1.win 2).cut (grid1.coords t) ((dat1 V c).after 2 t) = _
  rw [after1_2]
  unfold out1_2
  rw [View.canon_unit_zero hz2]
  simp only [View.ld_unit_zero (S := S512x256) hz2, View.ld_unit_zero (S := S2048x256) hz2]
  obtain ⟨e00, e01, e10, e11, e20, e21, ht⟩ := idx_facts t
  funext y
  obtain ⟨p, q, rfl⟩ : ∃ (p : Fin 512) (q : Fin 2048), y = ix2 p q := ⟨y 0, y 1, eq_ix2 y⟩
  show k1_pay1 (iblk1 V c 0 t) (iblk1 V c 1 t) (ix2 p q)
    = S (V c main_v1) (V c main_v2) (((cfg1.win 2).blk t).view.emb (ix2 p q))
  refine (pay_apply _ _ p q).trans ?_
  refine Eq.trans ?_ (S_at _ _ _ p (⟨t.val * 2048 + q.val, by omega⟩ : Fin 100352) ?_ ?_).symm
  · have h1 : (fun d : Fin 256 => iblk1 V c 1 t (ix2 q d)) = fun d => V c main_v2 (ix2 (⟨t.val * 2048 + q.val, by omega⟩ : Fin 100352) d) :=
      funext fun d => by
        show V c main_v2 (((cfg1.win 1).blk t).view.emb (ix2 q d)) = _
        refine congrArg _ (funext fun a => Fin.ext ?_)
        match a with
        | ⟨0, _⟩ => show win1_1.index t (0 : Fin 2) * 2048 + 1 * q.val = t.val * 2048 + q.val; omega
        | ⟨1, _⟩ => show win1_1.index t (1 : Fin 2) * 256 + 1 * d.val = d.val; omega
    refine Finset.sum_congr rfl fun d _ => ?_
    refine congrArg₂ (fun (u v : EReal) => u * v) ?_ (congrArg (fun f => scaled f d) h1)
    show V c main_v1 (((cfg1.win 0).blk t).view.emb (ix2 p d)) = V c main_v1 (ix2 p d)
    refine congrArg _ (funext fun a => Fin.ext ?_)
    match a with
    | ⟨0, _⟩ => show win1_0.index t (0 : Fin 2) * 512 + 1 * p.val = p.val; omega
    | ⟨1, _⟩ => show win1_0.index t (1 : Fin 2) * 256 + 1 * d.val = d.val; omega
  · show win1_2.index t (0 : Fin 2) * 512 + 1 * p.val = p.val; omega
  · show win1_2.index t (1 : Fin 2) * 2048 + 1 * q.val = t.val * 2048 + q.val; omega

/-- An index of the array is in point t's block iff each coordinate is in the block's range on its axis. -/
theorem mem_blk (t : Fin cfg1.N) (i : S512x100352.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v3).slice (win1_2.rect t)).set ↔ _
  rw [View.set_slice_whole, Rect.mem_set_unit]
  exact Iff.rfl

/-- Every column lies in the block of the point its column number divided by 2048 names. -/
theorem cover (i : S512x100352.Idx) : ∃ t : Fin cfg1.N, (cfg1.win 2).flush t = true ∧ i ∈ ((cfg1.win 2).blk t).view.set := by
  have hi0 : (i 0).val < 512 := (i 0).isLt
  have hi1 : (i 1).val < 100352 := (i 1).isLt
  let t : Fin cfg1.N := ⟨(i 1).val / 2048, by rw [show cfg1.N = 49 from N_1]; omega⟩
  obtain ⟨e00, e01, e10, e11, e20, e21, ht⟩ := idx_facts t
  have htv : t.val = (i 1).val / 2048 := rfl
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- THE ARRAY the similarity region leaves: `S` of the arrays as the region finds them. -/
theorem final (c : Dev nD) : (dat1 V c).arrAt 2 cfg1.N = S (V c main_v1) (V c main_v2) :=
  (dat1 V c).arrAt_eq_of_cover 2 (S (V c main_v1) (V c main_v2)) (fun t _ => flushed_eq V c t) cover

end Cert.KernelIdeal.Sim

end
-- ==== Proof.Fold.lean ====
/-
  The kernel program's result, read through its host operations.

  Between and around the two regions the program only re-lays data: the tokens are flattened to 512
  rows before the projection, the entity table gets 352 rows of zeros appended before the similarity
  region (49 blocks of 2048 rows), and afterwards the first 100000 columns are kept and the 512 rows are
  split back into 4 × 128 tokens. Read at (b, s, j): token (b, s) is flattened row 128·b + s, column
  j < 100000 is an unpadded entity row, so the result is the score of token (b, s) against entity row j.
-/
import proofs.«107490_j66142496358617_1_alg».proof.Proof.Gen.KernelIdeal.Frame
import proofs.«107490_j66142496358617_1_alg».proof.Proof.Region0
import proofs.«107490_j66142496358617_1_alg».proof.Proof.Region1
import Idealize.ShloMosaic.Lib.StableHlo.Run
import Idealize.ShloMosaic.Lib.KernelVsHost
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)
open Cert.KernelIdeal Cert.KernelIdeal.Gen Cert.Cosine

variable (m : (ℓ : Loc nD τ sig) → Buf (Elt Idealize.ShloMosaic.Ideal) ℓ) (ρ : Dev nD → PrngReg)

/-! ## Before the projection region -/

/-- The projection region finds the tokens flattened, -/
theorem tokens_eq (c : Dev nD) : W1 m ρ c (Proc.devRef .tc main_v0)
    = shapeCast S512x768 (m ((c : Thread nD τ).loc main_arg0)) shapeCasts_S4x128x768_S512x768 := by
  show StableHlo.after hostOps0 (W0 m ρ c) (Proc.devRef .tc main_v0) = _
  after_results
  rfl
/-- and the weights, the bias and the entity table as launched. -/
theorem weights_eq (c : Dev nD) : W1 m ρ c (Proc.devRef .tc main_arg1) = m ((c : Thread nD τ).loc main_arg1) := by
  show StableHlo.after hostOps0 (W0 m ρ c) (Proc.devRef .tc main_arg1) = _
  after_results
theorem bias_eq (c : Dev nD) : W1 m ρ c (Proc.devRef .tc main_arg2) = m ((c : Thread nD τ).loc main_arg2) := by
  show StableHlo.after hostOps0 (W0 m ρ c) (Proc.devRef .tc main_arg2) = _
  after_results
theorem table_eq (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

/-! ## Between the regions -/

/-- The similarity region finds the projection region's output untouched: the scaled squashed projections, -/
theorem query_eq (c : Dev nD) : W4 m ρ c (Proc.devRef .tc main_v1)
    = Proj.Q (W1 m ρ c (Proc.devRef .tc main_v0)) (W1 m ρ c (Proc.devRef .tc main_arg1)) (W1 m ρ c (Proc.devRef .tc main_arg2)) := by
  have h : W4 m ρ c (Proc.devRef .tc main_v1) = W2 m ρ c (Proc.devRef .tc main_v1) := by
    show StableHlo.after hostOps1_1 (StableHlo.after hostOps1 (W2 m ρ c)) (Proc.devRef .tc main_v1) = _
    after_results
  exact h.trans ((W2_arr m ρ c 3).trans (Proj.final (V1 m ρ) c))
/-- and the entity table with rows of zeros appended. -/
theorem padded_eq (c : Dev nD) : W4 m ρ c (Proc.devRef .tc main_v2)
    = pad S100352x256 ![0, 0] ![352, 0] ![0, 0] (m ((c : Thread nD τ).loc main_arg3)) (sitofp (F := Idealize.ShloMosaic.Ideal) .f32 (constantI S_ 32 0#32))
        pads_S100000x256_S100352x256_03520_000 h_S_ := by
  show StableHlo.after hostOps1_1 (StableHlo.after hostOps1 (W2 m ρ c)) (Proc.devRef .tc main_v2) = _
  after_results
  show pad S100352x256 ![0, 0] ![352, 0] ![0, 0] (W2 m ρ c (Proc.devRef .tc main_arg3) : S100000x256.Idx → EReal)
    (sitofp (F := Idealize.ShloMosaic.Ideal) .f32 (constantI S_ 32 0#32)) pads_S100000x256_S100352x256_03520_000 h_S_ = _
  rw [table_eq]

/-! ## After the similarity region -/

theorem scores_eq (c : Dev nD) : W5 m ρ c (Proc.devRef .tc main_v3)
    = Sim.S (W4 m ρ c (Proc.devRef .tc main_v1)) (W4 m ρ c (Proc.devRef .tc main_v2)) :=
  (W5_arr m ρ c 2).trans (Sim.final (V4 m ρ) c)

theorem out_eq (c : Dev nD) : W6 m ρ c (Proc.devRef .tc main_v5)
    = shapeCast S4x128x100000 (extractStridedSlice S512x100000 ![0, 0] (W5 m ρ c (Proc.devRef .tc main_v3)) slices_S512x100352_S512x100000_0_0)
        shapeCasts_S512x100000_S4x128x100000 := by
  show StableHlo.after hostOps2 (W5 m ρ c) (Proc.devRef .tc main_v5) = _
  after_results
  rfl

/-! ## The result at one index -/

/-- THE KERNEL PROGRAM'S RESULT at (b, s, j) is the score of token (b, s) against entity row j. -/
theorem result_apply (c : Dev nD) (b : Fin 4) (s : Fin 128) (j : Fin 100000) :
    W6 m ρ c (Proc.devRef .tc main_v5) (ix3 b s j)
      = score (fun k => m ((c : Thread nD τ).loc main_arg0) (ix3 b s k)) (fun e k => m ((c : Thread nD τ).loc main_arg1) (ix2 e k))
          (fun e => m ((c : Thread nD τ).loc main_arg2) (ix1 e)) (fun d => m ((c : Thread nD τ).loc main_arg3) (ix2 j d)) := by
  have hb := b.isLt
  have hs := s.isLt
  have hj := j.isLt
  let r : Fin 512 := ⟨b.val * 128 + s.val, by omega⟩
  let j' : Fin 100352 := ⟨j.val, by omega⟩
  rw [out_eq]
  refine (shapeCast_apply _ _ (ix3 b s j) (ix2 r j) ?_).trans ?_
  · rw [Shape.rowMajor_val_two, Shape.rowMajor_val_three]
    rfl
  refine (slice2_axis1_apply 0 _ _ r j j' (by show j.val = 0 + j.val; omega)).trans ?_
  rw [scores_eq]
  refine (Sim.S_at _ _ _ r j' rfl rfl).trans ?_
  unfold score
  refine Finset.sum_congr rfl fun d _ => ?_
  refine congrArg₂ (fun (u v : EReal) => u * v) ?_ (congrArg (fun f => scaled f d) (funext fun d' => ?_))
  · rw [query_eq]
    refine (Proj.Q_at _ _ _ _ r d rfl rfl).trans ?_
    rw [weights_eq, bias_eq, tokens_eq]
    refine congrArg (fun f => scaled (squashed f _ _) d) (funext fun k => ?_)
    refine shapeCast_apply _ _ (ix2 r k) (ix3 b s k) ?_
    rw [Shape.rowMajor_val_two, Shape.rowMajor_val_three]
    rfl
  · rw [padded_eq]
    refine pad_apply_of_inside _ _ _ _ _ _ _ (ix2 j' d') (ix2 j d') fun a => ?_
    match a with
    | ⟨0, _⟩ => show j.val = 0 + j.val * (0 + 1); omega
    | ⟨1, _⟩ => show d'.val = 0 + d'.val * (0 + 1); omega

end Cert.KernelIdeal.Fold

end
-- ==== Proof.RefSpec.lean ====
/-
  The reference program computes the score.

  Read one operation at a time, the reference's result at (b, s, j) is the inner product over the 256
  coordinates of the scaled squashed projection of token (b, s) with the scaled entity row j: its two
  matrix products are plain sums, its two row sums start from zero, and its host functions are the
  same extended-real functions the kernel's are.
-/
import proofs.«107490_j66142496358617_1_alg».proof.Proof.Gen.ReferenceIdeal.Read
import proofs.«107490_j66142496358617_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Cosine

variable (x0 : (⟨S4x128x768, .f32⟩ : BufTy).Contents (Elt Ideal)) (x1 : (⟨S256x768, .f32⟩ : BufTy).Contents (Elt Ideal))
  (x2 : (⟨S256, .f32⟩ : BufTy).Contents (Elt Ideal)) (x3 : (⟨S100000x256, .f32⟩ : BufTy).Contents (Elt Ideal))

/-! ## The composed index functions at explicit coordinates -/

theorem lidx0 (b : Fin 4) (s : Fin 128) (e : Fin 256) (k : Fin 768) : lidx_main_v0 (ix3 b s e) k = ix3 b s k :=
  funext fun a => Fin.ext (by match a with | ⟨0, _⟩ => rfl | ⟨1, _⟩ => rfl | ⟨2, _⟩ => rfl)
theorem ridx0 (b : Fin 4) (s : Fin 128) (e : Fin 256) (k : Fin 768) : ridx_main_v0 (ix3 b s e) k = ix2 e k :=
  funext fun a => Fin.ext (by match a with | ⟨0, _⟩ => rfl | ⟨1, _⟩ => rfl)
theorem bidx (b : Fin 4) (s : Fin 128) (e : Fin 256) : idx_main_v1 (idx_main_v2 (ix3 b s e)) = ix1 e :=
  funext fun a => Fin.ext (by match a with | ⟨0, _⟩ => rfl)
theorem nidx (b : Fin 4) (s : Fin 128) (e k : Fin 256) :
    idx_main_call0_v1 (idx_main_call0_v2 (idx_main_v8 (ix3 b s e))) k = ix3 b s k :=
  funext fun a => Fin.ext (by match a with | ⟨0, _⟩ => rfl | ⟨1, _⟩ => rfl | ⟨2, _⟩ => rfl)
theorem eidx (j : Fin 100000) (d k : Fin 256) :
    idx_main_call1_v1 (idx_main_call1_v2 (idx_main_v13 (ix2 j d))) k = ix2 j k :=
  funext fun a => Fin.ext (by match a with | ⟨0, _⟩ => rfl | ⟨1, _⟩ => rfl)
theorem lidx15 (b : Fin 4) (s : Fin 128) (j : Fin 100000) (d : Fin 256) : lidx_main_v15 (ix3 b s j) d = ix3 b s d :=
  funext fun a => Fin.ext (by match a with | ⟨0, _⟩ => rfl | ⟨1, _⟩ => rfl | ⟨2, _⟩ => rfl)
theorem ridx15 (b : Fin 4) (s : Fin 128) (j : Fin 100000) (d : Fin 256) : ridx_main_v15 (ix3 b s j) d = ix2 j d :=
  funext fun a => Fin.ext (by match a with | ⟨0, _⟩ => rfl | ⟨1, _⟩ => rfl)

/-- The reference's tanh stage at (b, s, e) is the e-th squashed coordinate of token (b, s). -/
theorem squashed_apply (b : Fin 4) (s : Fin 128) (e : Fin 256) :
    val_main_v4 (F := Ideal) x0 x1 x2 (ix3 b s e)
      = squashed (fun k => x0 (ix3 b s k)) (fun e k => x1 (ix2 e k)) (fun e => x2 (ix1 e)) e := by
  rw [val_main_v4_apply, val_main_v3_apply, val_main_v0_apply, val_main_v2_apply, val_main_v1_apply]
  simp only [lidx0, ridx0, bidx, Ideal.hostUnary_tanh_def, Ideal.addf_def]
  rfl

/-- The reference's scaled query stage at (b, s, d). -/
theorem query_apply (b : Fin 4) (s : Fin 128) (d : Fin 256) :
    val_main_v9 (F := Ideal) x0 x1 x2 (ix3 b s d)
      = scaled (squashed (fun k => x0 (ix3 b s k)) (fun e k => x1 (ix2 e k)) (fun e => x2 (ix1 e))) d := by
  rw [val_main_v9_apply, val_main_v8_apply, val_main_v7_apply, val_main_v5_apply, val_main_call0_v2_apply,
    val_main_call0_v1_apply, val_main_v6_apply, val_main_cst_apply, val_main_call0_cst_apply, squashed_apply]
  simp only [val_main_call0_v0_apply, nidx, squashed_apply, Ideal.hostDivf_def, Ideal.maximumf_def, Ideal.hostUnary_sqrt_def,
    Ideal.mulf_def, Ideal.ofBits_def, Ideal.ofBits_zero_f32, zero_add]
  rfl

/-- The reference's scaled entity stage at (j, d). -/
theorem entity_apply (j : Fin 100000) (d : Fin 256) :
    val_main_v14 (F := Ideal) x3 (ix2 j d) = scaled (fun d => x3 (ix2 j d)) d := by
  rw [val_main_v14_apply, val_main_v13_apply, val_main_v12_apply, val_main_v10_apply, val_main_call1_v2_apply,
    val_main_call1_v1_apply, val_main_v11_apply, val_main_cst_0_apply, val_main_call1_cst_apply]
  simp only [val_main_call1_v0_apply, eidx, Ideal.hostDivf_def, Ideal.maximumf_def, Ideal.hostUnary_sqrt_def,
    Ideal.mulf_def, Ideal.ofBits_def, Ideal.ofBits_zero_f32, zero_add]
  rfl

/-- THE REFERENCE'S RESULT at (b, s, j) is the score of token (b, s) against entity row j. -/
theorem result_apply (b : Fin 4) (s : Fin 128) (j : Fin 100000) :
    val_main_v15 (F := Ideal) x0 x1 x2 x3 (ix3 b s j)
      = score (fun k => x0 (ix3 b s k)) (fun e k => x1 (ix2 e k)) (fun e => x2 (ix1 e)) (fun d => x3 (ix2 j d)) := by
  rw [val_main_v15_apply]
  unfold score
  refine Finset.sum_congr rfl fun d _ => ?_
  rw [lidx15, ridx15, query_apply, entity_apply]

end Cert.ReferenceIdeal.RefValue

end
-- ==== Proof.Scores.lean ====
/-
  The whole result as one array: at (b, s, j) the score of token (b, s) against entity row j.
-/
import proofs.«107490_j66142496358617_1_alg».proof.Proof.Spec

noncomputable section

namespace Cert.Cosine

open Idealize.ShloMosaic Idealize.ShloMosaic.ValueIdx

/-- Every token against every entity row. -/
def scores (x0 : (⟨3, ![4, 128, 768]⟩ : Shape).Idx → EReal) (x1 : (⟨2, ![256, 768]⟩ : Shape).Idx → EReal)
    (x2 : (⟨1, ![256]⟩ : Shape).Idx → EReal) (x3 : (⟨2, ![100000, 256]⟩ : Shape).Idx → EReal) :
    (⟨3, ![4, 128, 100000]⟩ : Shape).Idx → EReal := fun i =>
  score (fun k => x0 (ix3 (⟨(i 0).val, (i 0).isLt⟩ : Fin 4) (⟨(i 1).val, (i 1).isLt⟩ : Fin 128) k)) (fun e k => x1 (ix2 e k))
    (fun e => x2 (ix1 e)) (fun d => x3 (ix2 (⟨(i 2).val, (i 2).isLt⟩ : Fin 100000) d))

/-- The same at an index given by its coordinates. -/
theorem scores_at (x0 : (⟨3, ![4, 128, 768]⟩ : Shape).Idx → EReal) (x1 : (⟨2, ![256, 768]⟩ : Shape).Idx → EReal)
    (x2 : (⟨1, ![256]⟩ : Shape).Idx → EReal) (x3 : (⟨2, ![100000, 256]⟩ : Shape).Idx → EReal) (b : Fin 4) (s : Fin 128) (j : Fin 100000) :
    scores x0 x1 x2 x3 (ix3 b s j)
      = score (fun k => x0 (ix3 b s k)) (fun e k => x1 (ix2 e k)) (fun e => x2 (ix1 e)) (fun d => x3 (ix2 j d)) := rfl

/-- An array that agrees with the scores at every (b, s, j) is the scores. -/
theorem eq_scores (x0 : (⟨3, ![4, 128, 768]⟩ : Shape).Idx → EReal) (x1 : (⟨2, ![256, 768]⟩ : Shape).Idx → EReal)
    (x2 : (⟨1, ![256]⟩ : Shape).Idx → EReal) (x3 : (⟨2, ![100000, 256]⟩ : Shape).Idx → EReal)
    (Y : (⟨3, ![4, 128, 100000]⟩ : Shape).Idx → EReal)
    (h : ∀ (b : Fin 4) (s : Fin 128) (j : Fin 100000), Y (ix3 b s j)
      = score (fun k => x0 (ix3 b s k)) (fun e k => x1 (ix2 e k)) (fun e => x2 (ix1 e)) (fun d => x3 (ix2 j d))) :
    Y = scores x0 x1 x2 x3 := by
  funext i
  obtain ⟨b, s, j, rfl⟩ : ∃ (b : Fin 4) (s : Fin 128) (j : Fin 100000), i = ix3 b s j := ⟨i 0, i 1, i 2, eq_ix3 i⟩
  exact (h b s j).trans (scores_at x0 x1 x2 x3 b s j).symm

end Cert.Cosine

end
-- ==== Proof.lean ====
/-
  The kernel program and the reference compute the same scores over the extended reals.

  Both programs project each of the 4 × 128 tokens' 768 features to 256 coordinates, squash them by
  tanh, divide the squashed row by the larger of its Euclidean length and a floor of 1e-8, divide every
  row of the 100000 × 256 entity table the same way, and take the inner product of every token row with
  every entity row. The kernel program does it in two tiled regions — the projection over four blocks
  of 128 flattened token rows, the similarity over 49 blocks of 2048 rows of the table padded with
  zero rows — and then drops the padded columns; the reference does it in whole-array operations.
  On the extended reals a change of float format is the identity and a sum does not depend on how it
  is tiled, so the two results agree index by index: no law that needs finiteness is used, and the
  precondition is never opened.

  The kernel program's final contents are read off its launch (Proof/RunV.lean), each region's output
  array is one function of what the region finds (Proof/Region0.lean, Proof/Region1.lean, over the
  bodies' entries in Proof/Body0.lean, Proof/Body1.lean), the host operations around the regions are
  read at an index (Proof/Fold.lean), and the reference's operations are read one by one
  (Proof/RefSpec.lean); both sides meet in `Cert.Cosine.scores` (Proof/Spec.lean, Proof/Scores.lean).
-/
import proofs.«107490_j66142496358617_1_alg».proof.Defs
import proofs.«107490_j66142496358617_1_alg».proof.Proof.Gen.Kernel
import proofs.«107490_j66142496358617_1_alg».proof.Proof.Gen.Kernel.Skeleton
import proofs.«107490_j66142496358617_1_alg».proof.Proof.Gen.Kernel.Launch
import proofs.«107490_j66142496358617_1_alg».proof.Proof.Gen.Kernel.Points
import proofs.«107490_j66142496358617_1_alg».proof.Proof.Gen.Kernel.Frame
import proofs.«107490_j66142496358617_1_alg».proof.Proof.Gen.KernelIdeal
import proofs.«107490_j66142496358617_1_alg».proof.Proof.Gen.KernelIdeal.Skeleton
import proofs.«107490_j66142496358617_1_alg».proof.Proof.Gen.KernelIdeal.Launch
import proofs.«107490_j66142496358617_1_alg».proof.Proof.Gen.KernelIdeal.Points
import proofs.«107490_j66142496358617_1_alg».proof.Proof.Gen.KernelIdeal.Frame
import proofs.«107490_j66142496358617_1_alg».proof.Proof.Gen.ReferenceIdeal
import proofs.«107490_j66142496358617_1_alg».proof.Proof.Gen.Pre_finite_inputs
import proofs.«107490_j66142496358617_1_alg».proof.Proof.Gen.ReferenceIdeal.Run
import proofs.«107490_j66142496358617_1_alg».proof.Proof.Gen.ReferenceIdeal.Read
import proofs.«107490_j66142496358617_1_alg».proof.Proof.RunV
import proofs.«107490_j66142496358617_1_alg».proof.Proof.Fold
import proofs.«107490_j66142496358617_1_alg».proof.Proof.RefSpec
import proofs.«107490_j66142496358617_1_alg».proof.Proof.Scores
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the scores of every token against every
    entity row. -/
theorem algebraic : Cert.algebraic_KernelIdeal_ReferenceIdeal := by
  intro m ρ m' ρ' _ hagree
  refine ⟨fun c => Cert.Cosine.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.RunV.run_result (F := Ideal) m ρ)
    exact Cert.Cosine.eq_scores _ _ _ _ _ (Cert.KernelIdeal.Fold.result_apply m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, (hagree c).1, (hagree c).2.1, (hagree c).2.2.1, (hagree c).2.2.2]
    exact Cert.Cosine.eq_scores _ _ _ _ _ (Cert.ReferenceIdeal.RefValue.result_apply _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
